-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x360 : Shape := ⟨2, ![262144, 360]⟩
abbrev S360x128 : Shape := ⟨2, ![360, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S262144x360 : S_.BroadcastsInDim S262144x360 (![] : Fin 0 → Fin S262144x360.rank)
  reducesTo_S262144x360_S_d0_1 : S262144x360.ReducesTo [0, 1] S_
  h_S_ : 0 < S_.numel
  bcast_S_S360x128 : S_.BroadcastsInDim S360x128 (![] : Fin 0 → Fin S360x128.rank)
  reducesTo_S360x128_S_d0_1 : S360x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S64x2 .f32) (main_arg8 : FVec F S2 .f32) (main_v33 : IVec S_ 1) : IVec S_ 1 :=
  let main_v34 : FVec F S64x2 .f32 := Host.absf main_arg7
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S128 .f32) (main_arg5 : FVec F S128x64 .f32) (main_arg6 : FVec F S64 .f32) (main_arg7 : FVec F S64x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S262144x360 .f32) (main_arg1 : FVec F S360x128 .f32) (main_arg2 : FVec F S128 .f32) (main_arg3 : FVec F S128x128 .f32) (main_arg4 : FVec F S128 .f32) (main_arg5 : FVec F S128x64 .f32) (main_arg6 : FVec F S64 .f32) (main_arg7 : FVec F S64x2 .f32) (main_arg8 : FVec F S2 .f32) : IVec S_ 1 :=
  let main_v0 : FVec F S262144x360 .f32 := Host.absf main_arg0
  let main_cst : FVec F S_ .f32 := constant S_ .f32 0x7F800000#32
  let main_v1 : FVec F S262144x360 .f32 := broadcastInDim S262144x360 ![] bcast_S_S262144x360 main_cst
  let main_v2 : IVec S262144x360 1 := cmpf .olt main_v0 main_v1
  let main_c : IVec S_ 1 := constantI S_ 1 1#1
  let main_v3 : IVec S_ 1 := (fun x v => Host.reduce IntOp.andi x v reducesTo_S262144x360_S_d0_1 h_S_) main_v2 main_c
  let main_v4 : FVec F S360x128 .f32 := Host.absf main_arg1
  let main_cst_0 : FVec F S_ .f32 := constant S_ .f32 0x7F800000#32
  let main_v5 : FVec F S360x128 .f32 := broadcastInDim S360x128 ![] bcast_S_S360x128 main_cst_0
  let main_v6 : IVec S360x128 1 := cmpf .olt main_v4 main_v5
  let main_c_1 : IVec S_ 1 := constantI S_ 1 1#1
  let main_v7 : IVec S_ 1 := (fun x v => Host.reduce IntOp.andi x v reducesTo_S360x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S262144x360 : Shape := ⟨2, ![262144, 360]⟩
abbrev S360x128 : Shape := ⟨2, ![360, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x128 : Shape := ⟨2, ![1, 128]⟩
abbrev S1x64 : Shape := ⟨2, ![1, 64]⟩
abbrev S2x64 : Shape := ⟨2, ![2, 64]⟩
abbrev S2x1 : Shape := ⟨2, ![2, 1]⟩
abbrev S2x262144 : Shape := ⟨2, ![2, 262144]⟩
abbrev S8192x360 : Shape := ⟨2, ![8192, 360]⟩
abbrev S2x8192 : Shape := ⟨2, ![2, 8192]⟩
abbrev S8192x128 : Shape := ⟨2, ![8192, 128]⟩
abbrev S8192x64 : Shape := ⟨2, ![8192, 64]⟩
abbrev S1x8192 : Shape := ⟨2, ![1, 8192]⟩
abbrev S262144x2 : Shape := ⟨2, ![262144, 2]⟩

abbrev nBuf : Space → Nat
  | .hbm => 16
  | .vmem => 12
  | .smem => 0
  | _ => 0

abbrev bufTy : (tb : Table) → Fin (tcTables nBuf tb) → BufTy
  | .hbm, ⟨0, _⟩ => ⟨S262144x360, .f32⟩
  | .hbm, ⟨1, _⟩ => ⟨S360x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x128, .f32⟩
  | .hbm, ⟨10, _⟩ => ⟨S1x128, .f32⟩
  | .hbm, ⟨11, _⟩ => ⟨S1x64, .f32⟩
  | .hbm, ⟨12, _⟩ => ⟨S2x64, .f32⟩
  | .hbm, ⟨13, _⟩ => ⟨S2x1, .f32⟩
  | .hbm, ⟨14, _⟩ => ⟨S2x262144, .f32⟩
  | .hbm, ⟨15, _⟩ => ⟨S262144x2, .f32⟩
  | .local _ .vmem, ⟨0, _⟩ => ⟨S8192x360, .f32⟩
  | .local _ .vmem, ⟨1, _⟩ => ⟨S8192x360, .f32⟩
  | .local _ .vmem, ⟨2, _⟩ => ⟨S360x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S2x64, .f32⟩
  | .local _ .vmem, ⟨9, _⟩ => ⟨S2x1, .f32⟩
  | .local _ .vmem, ⟨10, _⟩ => ⟨S2x8192, .f32⟩
  | .local _ .vmem, ⟨11, _⟩ => ⟨S2x8192, .f32⟩
  | _, _ => ⟨S262144x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S360x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  shapeCasts_S64_S1x64 : S64.ShapeCasts S1x64
  transposes_S64x2_S2x64_1_0 : S64x2.Transposes [1, 0] S2x64
  shapeCasts_S2_S2x1 : S2.ShapeCasts S2x1
  inb_S8192x360_S8192x360_0_0 : ∀ a, (![0, 0] : Fin 2 → Nat) a + S8192x360.size a ≤ S8192x360.size a
  h_S8192x360 : 0 < S8192x360.numel
  bitsLt_bf16_f32 : FTy.bits .bf16 < FTy.bits .f32
  inb_S360x128_S360x128_0_0 : ∀ a, (![0, 0] : Fin 2 → Nat) a + S360x128.size a ≤ S360x128.size a
  h_S360x128 : 0 < S360x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x8192 : S2x1.Broadcasts S2x8192
  slices_S2x8192_o0_0_S1x8192 : S2x8192.Slices ![0, 0] S1x8192
  slices_S2x8192_o1_0_S1x8192 : S2x8192.Slices ![1, 0] S1x8192
  concatenates_S1x8192_S1x8192_S2x8192_d0 : Shape.Concatenates [S1x8192, S1x8192] S2x8192 0
  inb_S2x8192_S2x8192_0_0 : ∀ a, (![0, 0] : Fin 2 → Nat) a + S2x8192.size a ≤ S2x8192.size a
  h_S2x8192 : 0 < S2x8192.numel
  transposes_S2x262144_S262144x2_1_0 : S2x262144.Transposes [1, 0] S262144x2
  dot_S8192x360_S360x128_S8192x128_1_0_0_1_n_n_wf : DotDims.WF S8192x360 S360x128 S8192x128 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  dot_S2x64_S8192x64_S2x8192_1_1_0_0_n_n_wf : DotDims.WF S2x64 S8192x64 S2x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x360.size a ≤ S262144x360.size a
  hwx0_0 : ∀ i : grid0.Coords, EltTy.bits .f32 = 32 ∨ (Rect.block (s := S262144x360) S8192x360.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S360x128.size a ≤ S360x128.size a
  hwx0_1 : ∀ i : grid0.Coords, EltTy.bits .f32 = 32 ∨ (Rect.block (s := S360x128) S360x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x64.size a ≤ S2x64.size a
  hwx0_7 : ∀ i : grid0.Coords, EltTy.bits .f32 = 32 ∨ (Rect.block (s := S2x64) S2x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1.size a ≤ S2x1.size a
  hwx0_8 : ∀ i : grid0.Coords, EltTy.bits .f32 = 32 ∨ (Rect.block (s := S2x1) S2x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x8192.size a ≤ S2x262144.size a
  hwx0_9 : ∀ i : grid0.Coords, EltTy.bits .f32 = 32 ∨ (Rect.block (s := S2x262144) S2x8192.size (cc0_transform_9 i) (hinb0_9 i)).WholeWords (EltTy.packing .f32)

variable [Facts₀]

def dot_S8192x360_S360x128_S8192x128_1_0_0_1_n_n : DotDims S8192x360 S360x128 S8192x128 where
  lhsContracting := [1]
  rhsContracting := [0]
  lhsNonContracting := [0]
  rhsNonContracting := [1]
  lhsBatch := []
  rhsBatch := []
  wf := dot_S8192x360_S360x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S2x64_S8192x64_S2x8192_1_1_0_0_n_n : DotDims S2x64 S8192x64 S2x8192 where
  lhsContracting := [1]
  rhsContracting := [1]
  lhsNonContracting := [0]
  rhsNonContracting := [0]
  lhsBatch := []
  rhsBatch := []
  wf := dot_S2x64_S8192x64_S2x8192_1_1_0_0_n_n_wf

abbrev win0_0 : Pipeline.Window sig grid0 :=
  Pipeline.Window.ofSpec (Memref.whole main_arg0) S8192x360.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S360x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2x8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x360 : Shape := ⟨2, ![262144, 360]⟩
abbrev S360x128 : Shape := ⟨2, ![360, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S262144x128 : Shape := ⟨2, ![262144, 128]⟩
abbrev S1x128 : Shape := ⟨2, ![1, 128]⟩
abbrev S_ : Shape := ⟨0, ![]⟩
abbrev S262144x64 : Shape := ⟨2, ![262144, 64]⟩
abbrev S1x64 : Shape := ⟨2, ![1, 64]⟩
abbrev S262144x2 : Shape := ⟨2, ![262144, 2]⟩
abbrev S1x2 : Shape := ⟨2, ![1, 2]⟩
abbrev S262144x1 : Shape := ⟨2, ![262144, 1]⟩
abbrev S262144 : Shape := ⟨1, ![262144]⟩

abbrev nBuf : Space → Nat
  | .hbm => 48
  | .vmem => 0
  | .smem => 0
  | _ => 0

abbrev bufTy : (tb : Table) → Fin (tcTables nBuf tb) → BufTy
  | .hbm, ⟨0, _⟩ => ⟨S262144x360, .f32⟩
  | .hbm, ⟨1, _⟩ => ⟨S360x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S262144x128, .f32⟩
  | .hbm, ⟨10, _⟩ => ⟨S1x128, .f32⟩
  | .hbm, ⟨11, _⟩ => ⟨S262144x128, .f32⟩
  | .hbm, ⟨12, _⟩ => ⟨S262144x128, .f32⟩
  | .hbm, ⟨13, _⟩ => ⟨S_, .f32⟩
  | .hbm, ⟨14, _⟩ => ⟨S262144x128, .f32⟩
  | .hbm, ⟨15, _⟩ => ⟨S262144x128, .f32⟩
  | .hbm, ⟨16, _⟩ => ⟨S262144x128, .f32⟩
  | .hbm, ⟨17, _⟩ => ⟨S1x128, .f32⟩
  | .hbm, ⟨18, _⟩ => ⟨S262144x128, .f32⟩
  | .hbm, ⟨19, _⟩ => ⟨S262144x128, .f32⟩
  | .hbm, ⟨20, _⟩ => ⟨S_, .f32⟩
  | .hbm, ⟨21, _⟩ => ⟨S262144x128, .f32⟩
  | .hbm, ⟨22, _⟩ => ⟨S262144x128, .f32⟩
  | .hbm, ⟨23, _⟩ => ⟨S262144x64, .f32⟩
  | .hbm, ⟨24, _⟩ => ⟨S1x64, .f32⟩
  | .hbm, ⟨25, _⟩ => ⟨S262144x64, .f32⟩
  | .hbm, ⟨26, _⟩ => ⟨S262144x64, .f32⟩
  | .hbm, ⟨27, _⟩ => ⟨S_, .f32⟩
  | .hbm, ⟨28, _⟩ => ⟨S262144x64, .f32⟩
  | .hbm, ⟨29, _⟩ => ⟨S262144x64, .f32⟩
  | .hbm, ⟨30, _⟩ => ⟨S262144x2, .f32⟩
  | .hbm, ⟨31, _⟩ => ⟨S1x2, .f32⟩
  | .hbm, ⟨32, _⟩ => ⟨S262144x2, .f32⟩
  | .hbm, ⟨33, _⟩ => ⟨S262144x2, .f32⟩
  | .hbm, ⟨34, _⟩ => ⟨S262144x1, .f32⟩
  | .hbm, ⟨35, _⟩ => ⟨S262144, .f32⟩
  | .hbm, ⟨36, _⟩ => ⟨S_, .f32⟩
  | .hbm, ⟨37, _⟩ => ⟨S262144, .f32⟩
  | .hbm, ⟨38, _⟩ => ⟨S262144, .f32⟩
  | .hbm, ⟨39, _⟩ => ⟨S262144x1, .f32⟩
  | .hbm, ⟨40, _⟩ => ⟨S262144, .f32⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144x1, .f32⟩
  | .hbm, ⟨46, _⟩ => ⟨S262144x1, .f32⟩
  | .hbm, ⟨47, _⟩ => ⟨S262144x2, .f32⟩
  | _, _ => ⟨S262144x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call3_cst : Ref sig .tc := ⟨.hbm, 36, rfl⟩
abbrev main_call3_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  slices_S262144x2_S262144x1_0_1 : S262144x2.Slices ![0, 1] S262144x1
  bcast_S262144_S262144x1_0 : S262144.BroadcastsInDim S262144x1 (![0] : Fin 1 → Fin S262144x1.rank)
  concatenates_S262144x1_S262144x1_S262144x2_d1 : Shape.Concatenates [S262144x1, S262144x1] S262144x2 1
  dot_S262144x360_S360x128_S262144x128_1_0_0_1_n_n_wf : DotDims.WF S262144x360 S360x128 S262144x128 [1] [0] [0] [1] [] []
  dot_S262144x128_S128x128_S262144x128_1_0_0_1_n_n_wf : DotDims.WF S262144x128 S128x128 S262144x128 [1] [0] [0] [1] [] []
  dot_S262144x128_S128x64_S262144x64_1_0_0_1_n_n_wf : DotDims.WF S262144x128 S128x64 S262144x64 [1] [0] [0] [1] [] []
  dot_S262144x64_S64x2_S262144x2_1_0_0_1_n_n_wf : DotDims.WF S262144x64 S64x2 S262144x2 [1] [0] [0] [1] [] []

variable [Facts₀]

def dot_S262144x360_S360x128_S262144x128_1_0_0_1_n_n : DotDims S262144x360 S360x128 S262144x128 where
  lhsContracting := [1]
  rhsContracting := [0]
  lhsNonContracting := [0]
  rhsNonContracting := [1]
  lhsBatch := []
  rhsBatch := []
  wf := dot_S262144x360_S360x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x2_S262144x2_1_0_0_1_n_n : DotDims S262144x64 S64x2 S262144x2 where
  lhsContracting := [1]
  rhsContracting := [0]
  lhsNonContracting := [0]
  rhsNonContracting := [1]
  lhsBatch := []
  rhsBatch := []
  wf := dot_S262144x64_S64x2_S262144x2_1_0_0_1_n_n_wf

class Facts : Prop extends Facts₀ where

variable [Facts]
-- ==== Proof.Mlp.lean ====
/-
  The network as mathematics, over the extended reals, with no program in sight.

  A dense layer at one output unit is the sum over the input units of input times weight, plus the
  unit's bias (`affine`); a hidden layer is that followed by the maximum with zero. The network sends
  one row of 360 numbers through three hidden layers of 128, 128 and 64 units, then through an affine
  head of two units: the first head unit is clamped below at zero, the second is squashed by the
  hyperbolic tangent and scaled by three (`rowOut`). The whole result array applies `rowOut` to every
  row of the input array (`net`).

  Zero and three are kept as the binary32 words both programs spell (`0x00000000`, `0x40400000`): the
  same word stands on both sides of every equation below, so its value is never needed.
-/
import Idealize.ShloMosaic.PureOps.Ideal
import Idealize.ShloMosaic.Lib.ValueIdx

noncomputable section

namespace Cert.Mlp

open Idealize.ShloMosaic Idealize.ShloMosaic.ValueIdx

/-- The word both programs write for the lower clamp. -/
abbrev zeroW : EReal := Ideal.ofBits .f32 0x00000000#32
/-- The word both programs write for the scale of the second head unit. -/
abbrev threeW : EReal := Ideal.ofBits .f32 0x40400000#32

/-- One unit of a dense layer: `∑ₖ h k · W k j + b j`. -/
def affine {K N : Nat} (h : Fin K → EReal) (W : Fin K → Fin N → EReal) (b : Fin N → EReal) (j : Fin N) : EReal :=
  (∑ k : Fin K, h k * W k j) + b j

/-- One unit of a hidden layer: the dense unit clamped below at zero. -/
def hidden {K N : Nat} (h : Fin K → EReal) (W : Fin K → Fin N → EReal) (b : Fin N → EReal) (j : Fin N) : EReal :=
  max (affine h W b j) zeroW

/-- The two results of one input row. -/
def rowOut (xr : Fin 360 → EReal)
    (W1 : Fin 360 → Fin 128 → EReal) (b1 : Fin 128 → EReal)
    (W2 : Fin 128 → Fin 128 → EReal) (b2 : Fin 128 → EReal)
    (W3 : Fin 128 → Fin 64 → EReal) (b3 : Fin 64 → EReal)
    (Wmu : Fin 64 → Fin 2 → EReal) (bmu : Fin 2 → EReal) (d : Fin 2) : EReal :=
  if d.val = 0 then
    max (affine (hidden (hidden (hidden xr W1 b1) W2 b2) W3 b3) Wmu bmu 0) zeroW
  else
    Ideal.tanh (affine (hidden (hidden (hidden xr W1 b1) W2 b2) W3 b3) Wmu bmu 1) * threeW

/-- The result array: `rowOut` of every row of `x`, the weights and biases read off their arrays. -/
def net (x : (⟨2, ![262144, 360]⟩ : Shape).Idx → EReal)
    (W1 : (⟨2, ![360, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 64]⟩ : Shape).Idx → EReal) (b3 : (⟨1, ![64]⟩ : Shape).Idx → EReal)
    (Wmu : (⟨2, ![64, 2]⟩ : Shape).Idx → EReal) (bmu : (⟨1, ![2]⟩ : Shape).Idx → EReal) :
    (⟨2, ![262144, 2]⟩ : Shape).Idx → EReal := fun i =>
  rowOut (fun k => x (ix2 (i 0) k)) (fun k j => W1 (ix2 k j)) (fun j => b1 (ix1 j))
    (fun k j => W2 (ix2 k j)) (fun j => b2 (ix1 j)) (fun k j => W3 (ix2 k j)) (fun j => b3 (ix1 j))
    (fun k j => Wmu (ix2 k j)) (fun j => bmu (ix1 j)) (i 1)

end Cert.Mlp

end
-- ==== Proof.RefNet.lean ====
/-
  The reference program's result, read index by index, is the network `Cert.Mlp.net` of its arguments.

  The reference is a chain of host operations: a matrix product, a bias broadcast over the rows, a
  maximum with a zero splat, three times over; then the product with the head's weights and its bias;
  then column 0 clamped at zero, column 1 through `tanh` and times three, and the two columns joined.
  Read at row `r` and unit `j`, every product is a sum over the contracted index of one row of the left
  operand against one column of the right, every broadcast reads its one operand entry, and the join
  reads its left piece at column 0 and its right piece at column 1. So each stage at `(r, j)` is the
  corresponding layer of `Cert.Mlp` applied to row `r` of the input.
-/
import proofs.«404383_j43928925503537_3_alg».proof.Proof.Gen.ReferenceIdeal.Read
import proofs.«404383_j43928925503537_3_alg».proof.Proof.Mlp

noncomputable section

namespace Cert.ReferenceIdeal.RefNet

open Cert.ReferenceIdeal Cert.ReferenceIdeal.Read Cert.Mlp
open Idealize.ShloMosaic Idealize.ShloMosaic.ValueIdx

variable (x0 : FVec Ideal S262144x360 .f32) (x1 : FVec Ideal S360x128 .f32) (x2 : FVec Ideal S128 .f32)
  (x3 : FVec Ideal S128x128 .f32) (x4 : FVec Ideal S128 .f32) (x5 : FVec Ideal S128x64 .f32)
  (x6 : FVec Ideal S64 .f32) (x7 : FVec Ideal S64x2 .f32) (x8 : FVec Ideal S2 .f32)

/-! ## Where each stage reads its operands -/

theorem lidx0 (r : Fin 262144) (j : Fin 128) (k : Fin 360) : lidx_main_v0 (ix2 r j) k = ix2 r k :=
  funext fun a => Fin.ext (by match a with | ⟨0, _⟩ => rfl | ⟨1, _⟩ => rfl)
theorem ridx0 (r : Fin 262144) (j : Fin 128) (k : Fin 360) : ridx_main_v0 (ix2 r j) k = ix2 k j :=
  funext fun a => Fin.ext (by match a with | ⟨0, _⟩ => rfl | ⟨1, _⟩ => rfl)
theorem bidx0 (r : Fin 262144) (j : Fin 128) : idx_main_v1 (idx_main_v2 (ix2 r j)) = ix1 j :=
  funext fun a => Fin.ext (by match a with | ⟨0, _⟩ => rfl)

theorem lidx5 (r : Fin 262144) (j : Fin 128) (k : Fin 128) : lidx_main_v5 (ix2 r j) k = ix2 r k :=
  funext fun a => Fin.ext (by match a with | ⟨0, _⟩ => rfl | ⟨1, _⟩ => rfl)
theorem ridx5 (r : Fin 262144) (j : Fin 128) (k : Fin 128) : ridx_main_v5 (ix2 r j) k = ix2 k j :=
  funext fun a => Fin.ext (by match a with | ⟨0, _⟩ => rfl | ⟨1, _⟩ => rfl)
theorem bidx5 (r : Fin 262144) (j : Fin 128) : idx_main_v6 (idx_main_v7 (ix2 r j)) = ix1 j :=
  funext fun a => Fin.ext (by match a with | ⟨0, _⟩ => rfl)

theorem lidx10 (r : Fin 262144) (j : Fin 64) (k : Fin 128) : lidx_main_v10 (ix2 r j) k = ix2 r k :=
  funext fun a => Fin.ext (by match a with | ⟨0, _⟩ => rfl | ⟨1, _⟩ => rfl)
theorem ridx10 (r : Fin 262144) (j : Fin 64) (k : Fin 128) : ridx_main_v10 (ix2 r j) k = ix2 k j :=
  funext fun a => Fin.ext (by match a with | ⟨0, _⟩ => rfl | ⟨1, _⟩ => rfl)
theorem bidx10 (r : Fin 262144) (j : Fin 64) : idx_main_v11 (idx_main_v12 (ix2 r j)) = ix1 j :=
  funext fun a => Fin.ext (by match a with | ⟨0, _⟩ => rfl)

theorem lidx15 (r : Fin 262144) (d : Fin 2) (k : Fin 64) : lidx_main_v15 (ix2 r d) k = ix2 r k :=
  funext fun a => Fin.ext (by match a with | ⟨0, _⟩ => rfl | ⟨1, _⟩ => rfl)
theorem ridx15 (r : Fin 262144) (d : Fin 2) (k : Fin 64) : ridx_main_v15 (ix2 r d) k = ix2 k d :=
  funext fun a => Fin.ext (by match a with | ⟨0, _⟩ => rfl | ⟨1, _⟩ => rfl)
theorem bidx15 (r : Fin 262144) (d : Fin 2) : idx_main_v16 (idx_main_v17 (ix2 r d)) = ix1 d :=
  funext fun a => Fin.ext (by match a with | ⟨0, _⟩ => rfl)

/-- Column 0 of the head, as the left piece of the join reads it: row `r`, column 0. -/
theorem cidx0 (r : Fin 262144) :
    idx_main_v19 (idx_main_v20 (idx_main_v27 (ix2 r (0 : Fin 1)))) = ix2 r (0 : Fin 2) :=
  funext fun a => Fin.ext (by
    match a with
    | ⟨0, _⟩ => show r.val / 1 = r.val; omega
    | ⟨1, _⟩ => rfl)
/-- Column 1 of the head, as the right piece of the join reads it: row `r`, column 1. -/
theorem cidx1 (r : Fin 262144) :
    idx_main_v22 (idx_main_v23 (idx_main_v28 (ix2 r (0 : Fin 1)))) = ix2 r (1 : Fin 2) :=
  funext fun a => Fin.ext (by
    match a with
    | ⟨0, _⟩ => show r.val / 1 = r.val; omega
    | ⟨1, _⟩ => rfl)

/-! ## The stages -/

/-- The first hidden layer at row `r`, unit `j`. -/
theorem layer1 (r : Fin 262144) (j : Fin 128) :
    val_main_v4 (F := Ideal) x0 x1 x2 (ix2 r j)
      = hidden (fun k => x0 (ix2 r k)) (fun k j => x1 (ix2 k j)) (fun j => x2 (ix1 j)) j := by
  rw [val_main_v4_apply, val_main_v3_apply, val_main_v0_apply, val_main_v2_apply, val_main_v1_apply,
    val_main_call0_v0_apply, val_main_call0_cst_apply, bidx0]
  simp only [lidx0, ridx0]
  rfl

/-- The second hidden layer at row `r`, unit `j`. -/
theorem layer2 (r : Fin 262144) (j : Fin 128) :
    val_main_v9 (F := Ideal) x0 x1 x2 x3 x4 (ix2 r j)
      = hidden (hidden (fun k => x0 (ix2 r k)) (fun k j => x1 (ix2 k j)) (fun j => x2 (ix1 j)))
          (fun k j => x3 (ix2 k j)) (fun j => x4 (ix1 j)) j := by
  rw [val_main_v9_apply, val_main_v8_apply, val_main_v5_apply, val_main_v7_apply, val_main_v6_apply,
    val_main_call1_v0_apply, val_main_call1_cst_apply, bidx5]
  simp only [lidx5, ridx5, layer1]
  rfl

/-- The third hidden layer at row `r`, unit `j`. -/
theorem layer3 (r : Fin 262144) (j : Fin 64) :
    val_main_v14 (F := Ideal) x0 x1 x2 x3 x4 x5 x6 (ix2 r j)
      = hidden (hidden (hidden (fun k => x0 (ix2 r k)) (fun k j => x1 (ix2 k j)) (fun j => x2 (ix1 j)))
          (fun k j => x3 (ix2 k j)) (fun j => x4 (ix1 j))) (fun k j => x5 (ix2 k j)) (fun j => x6 (ix1 j)) j := by
  rw [val_main_v14_apply, val_main_v13_apply, val_main_v10_apply, val_main_v12_apply, val_main_v11_apply,
    val_main_call2_v0_apply, val_main_call2_cst_apply, bidx10]
  simp only [lidx10, ridx10, layer2]
  rfl

/-- The head before its two nonlinearities, at row `r`, unit `d`. -/
theorem headAt (r : Fin 262144) (d : Fin 2) :
    val_main_v18 (F := Ideal) x0 x1 x2 x3 x4 x5 x6 x7 x8 (ix2 r d)
      = affine (hidden (hidden (hidden (fun k => x0 (ix2 r k)) (fun k j => x1 (ix2 k j)) (fun j => x2 (ix1 j)))
          (fun k j => x3 (ix2 k j)) (fun j => x4 (ix1 j))) (fun k j => x5 (ix2 k j)) (fun j => x6 (ix1 j)))
          (fun k j => x7 (ix2 k j)) (fun j => x8 (ix1 j)) d := by
  rw [val_main_v18_apply, val_main_v15_apply, val_main_v17_apply, val_main_v16_apply, bidx15]
  simp only [lidx15, ridx15, layer3]
  rfl

/-- The left piece of the join: column 0 of the head clamped at zero. -/
theorem left_apply (r : Fin 262144) :
    val_main_v27 (F := Ideal) x0 x1 x2 x3 x4 x5 x6 x7 x8 (ix2 r (0 : Fin 1))
      = max (val_main_v18 (F := Ideal) x0 x1 x2 x3 x4 x5 x6 x7 x8 (ix2 r (0 : Fin 2))) zeroW := by
  rw [val_main_v27_apply, val_main_v21_apply, val_main_v20_apply, val_main_v19_apply, cidx0,
    val_main_call3_v0_apply, val_main_call3_cst_apply]
  rfl

/-- The right piece of the join: `tanh` of column 1 of the head, times three. -/
theorem right_apply (r : Fin 262144) :
    val_main_v28 (F := Ideal) x0 x1 x2 x3 x4 x5 x6 x7 x8 (ix2 r (0 : Fin 1))
      = Ideal.tanh (val_main_v18 (F := Ideal) x0 x1 x2 x3 x4 x5 x6 x7 x8 (ix2 r (1 : Fin 2))) * threeW := by
  rw [val_main_v28_apply, val_main_v26_apply, val_main_v24_apply, val_main_v23_apply, val_main_v22_apply, cidx1,
    val_main_v25_apply, val_main_cst_apply]
  rfl

/-- The reference's result at row `r`, unit 0: the left piece of the join. -/
theorem result_apply0 (r : Fin 262144) :
    val_main_v29 (F := Ideal) x0 x1 x2 x3 x4 x5 x6 x7 x8 (ix2 r (0 : Fin 2)) = net x0 x1 x2 x3 x4 x5 x6 x7 x8 (ix2 r (0 : Fin 2)) := by
  unfold val_main_v29
  refine (concatenate_pair_apply_left (t := S262144x2) (s₁ := S262144x1) (s₂ := S262144x1) (1 : Fin 2) _ _ _
    (ix2 r (0 : Fin 2)) rfl (ix2 r (0 : Fin 1)) (fun b => by match b with | ⟨0, _⟩ => rfl | ⟨1, _⟩ => rfl)).trans ?_
  rw [left_apply, headAt]
  rfl

/-- The reference's result at row `r`, unit 1: the right piece of the join. -/
theorem result_apply1 (r : Fin 262144) :
    val_main_v29 (F := Ideal) x0 x1 x2 x3 x4 x5 x6 x7 x8 (ix2 r (1 : Fin 2)) = net x0 x1 x2 x3 x4 x5 x6 x7 x8 (ix2 r (1 : Fin 2)) := by
  unfold val_main_v29
  refine (concatenate_pair_apply_right (t := S262144x2) (s₁ := S262144x1) (s₂ := S262144x1) (1 : Fin 2) _ _ _
    (ix2 r (1 : Fin 2)) rfl rfl (ix2 r (0 : Fin 1))
    (fun b hb => by match b with | ⟨0, _⟩ => rfl | ⟨1, _⟩ => exact absurd rfl hb) rfl).trans ?_
  rw [right_apply, headAt]
  rfl

/-- The reference's result at row `r`, unit `d`, is the network's. -/
theorem result_apply (r : Fin 262144) (d : Fin 2) :
    val_main_v29 (F := Ideal) x0 x1 x2 x3 x4 x5 x6 x7 x8 (ix2 r d) = net x0 x1 x2 x3 x4 x5 x6 x7 x8 (ix2 r d) :=
  match d with
  | ⟨0, _⟩ => result_apply0 x0 x1 x2 x3 x4 x5 x6 x7 x8 r
  | ⟨1, _⟩ => result_apply1 x0 x1 x2 x3 x4 x5 x6 x7 x8 r

/-- The reference's result array is the network of its argument arrays. -/
theorem result_eq : val_main_v29 (F := Ideal) x0 x1 x2 x3 x4 x5 x6 x7 x8 = net x0 x1 x2 x3 x4 x5 x6 x7 x8 :=
  funext fun i => by rw [eq_ix2 i]; exact result_apply x0 x1 x2 x3 x4 x5 x6 x7 x8 (i 0) (i 1)

end Cert.ReferenceIdeal.RefNet

end
-- ==== Proof.KernelRow.lean ====
/-
  What the kernel body computes on one block, read index by index.

  The body loads a block of 8192 input rows and the whole weight and bias arrays, and stores a block
  of shape [2, 8192]: unit `d`, row `p`. Written as one pure term of the loaded values it is three times
  (matrix product into a zero accumulator, plus a bias row broadcast down the rows, maximum with zero),
  then the head product taken TRANSPOSED — the [2, 64] head weights against the [8192, 64] activations,
  contracting the 64 — plus a bias column broadcast along the rows; row 0 of that is clamped at zero,
  row 1 goes through `tanh` and is scaled by three, and the two rows are stacked. The changes of float
  format in between are the identity on the extended reals.

  Each matrix product at an index is the sum over the contracted index of the products of the operands'
  entries; each broadcast reads its one operand entry. So the stored block at `(d, p)` is
  `Cert.Mlp.rowOut` of row `p` of the input block at unit `d`; the one law used is that the head's
  products `w · h` may be written `h · w`.
-/
import proofs.«404383_j43928925503537_3_alg».proof.Proof.Gen.KernelIdeal.Skeleton
import proofs.«404383_j43928925503537_3_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Cert.Mlp
open Idealize.ShloMosaic Idealize.ShloMosaic.ValueIdx

/-! ## The four matrix products at an index -/

/-! ### rows × first weights: [8192, 360] · [360, 128] -/

theorem p1_l0 (i : S8192x128.Idx) (q : dot_S8192x360_S360x128_S8192x128_1_0_0_1_n_n.contr.Idx) :
    (dot_S8192x360_S360x128_S8192x128_1_0_0_1_n_n.lhsIdx i q 0).val = (i 0).val := by
  unfold DotDims.lhsIdx
  rw [dif_neg (show ¬(0 : Fin S8192x360.rank) ∈ dot_S8192x360_S360x128_S8192x128_1_0_0_1_n_n.lhsBatch by decide), dif_pos (show (0 : Fin S8192x360.rank) ∈ dot_S8192x360_S360x128_S8192x128_1_0_0_1_n_n.lhsNonContracting by decide)]
  rfl
theorem p1_l1 (i : S8192x128.Idx) (q : dot_S8192x360_S360x128_S8192x128_1_0_0_1_n_n.contr.Idx) :
    (dot_S8192x360_S360x128_S8192x128_1_0_0_1_n_n.lhsIdx i q 1).val = (q ⟨0, by decide⟩).val :=
  dot_S8192x360_S360x128_S8192x128_1_0_0_1_n_n.lhsIdx_val_of_single rfl i q
theorem p1_r0 (i : S8192x128.Idx) (q : dot_S8192x360_S360x128_S8192x128_1_0_0_1_n_n.contr.Idx) :
    (dot_S8192x360_S360x128_S8192x128_1_0_0_1_n_n.rhsIdx i q 0).val = (q ⟨0, by decide⟩).val :=
  dot_S8192x360_S360x128_S8192x128_1_0_0_1_n_n.rhsIdx_val_of_single rfl i q
theorem p1_r1 (i : S8192x128.Idx) (q : dot_S8192x360_S360x128_S8192x128_1_0_0_1_n_n.contr.Idx) :
    (dot_S8192x360_S360x128_S8192x128_1_0_0_1_n_n.rhsIdx i q 1).val = (i 1).val := by
  unfold DotDims.rhsIdx
  rw [dif_neg (show ¬(1 : Fin S360x128.rank) ∈ dot_S8192x360_S360x128_S8192x128_1_0_0_1_n_n.rhsBatch by decide), dif_pos (show (1 : Fin S360x128.rank) ∈ dot_S8192x360_S360x128_S8192x128_1_0_0_1_n_n.rhsNonContracting by decide)]
  rfl

theorem prod1_apply (l : FVec Ideal S8192x360 .bf16) (r : FVec Ideal S360x128 .bf16) (p : Fin 8192) (j : Fin 128) :
    matmul dot_S8192x360_S360x128_S8192x128_1_0_0_1_n_n none l r (constant S8192x128 .f32 0x00000000#32) (ix2 p j)
      = ∑ k : Fin 360, l (ix2 p k) * r (ix2 k j) := by
  simp only [matmul]
  rw [Ideal.matmul_constant_zero_apply, ← Equiv.sum_comp (contrEquiv1 dot_S8192x360_S360x128_S8192x128_1_0_0_1_n_n 360 rfl rfl).symm]
  refine Finset.sum_congr rfl fun k _ => ?_
  have hk := contrEquiv1_symm_val dot_S8192x360_S360x128_S8192x128_1_0_0_1_n_n 360 rfl rfl k
  have el : dot_S8192x360_S360x128_S8192x128_1_0_0_1_n_n.lhsIdx (ix2 p j) ((contrEquiv1 dot_S8192x360_S360x128_S8192x128_1_0_0_1_n_n 360 rfl rfl).symm k) = ix2 p k := funext fun a => Fin.ext (by
    match a with
    | ⟨0, _⟩ => exact p1_l0 _ _
    | ⟨1, _⟩ => exact (p1_l1 _ _).trans hk)
  have er : dot_S8192x360_S360x128_S8192x128_1_0_0_1_n_n.rhsIdx (ix2 p j) ((contrEquiv1 dot_S8192x360_S360x128_S8192x128_1_0_0_1_n_n 360 rfl rfl).symm k) = ix2 k j := funext fun a => Fin.ext (by
    match a with
    | ⟨0, _⟩ => exact (p1_r0 _ _).trans hk
    | ⟨1, _⟩ => exact p1_r1 _ _)
  rw [el, er]

/-! ### first activations × second weights: [8192, 128] · [128, 128] -/

theorem p2_l0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem p2_l1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem p2_r0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem p2_r1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

theorem prod2_apply (l : FVec Ideal S8192x128 .bf16) (r : FVec Ideal S128x128 .bf16) (p : Fin 8192) (j : Fin 128) :
    matmul dot_S8192x128_S128x128_S8192x128_1_0_0_1_n_n none l r (constant S8192x128 .f32 0x00000000#32) (ix2 p j)
      = ∑ k : Fin 128, l (ix2 p k) * r (ix2 k j) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p j) ((contrEquiv1 dot_S8192x128_S128x128_S8192x128_1_0_0_1_n_n 128 rfl rfl).symm k) = ix2 p k := funext fun a => Fin.ext (by
    match a with
    | ⟨0, _⟩ => exact p2_l0 _ _
    | ⟨1, _⟩ => exact (p2_l1 _ _).trans hk)
  have er : dot_S8192x128_S128x128_S8192x128_1_0_0_1_n_n.rhsIdx (ix2 p j) ((contrEquiv1 dot_S8192x128_S128x128_S8192x128_1_0_0_1_n_n 128 rfl rfl).symm k) = ix2 k j := funext fun a => Fin.ext (by
    match a with
    | ⟨0, _⟩ => exact (p2_r0 _ _).trans hk
    | ⟨1, _⟩ => exact p2_r1 _ _)
  rw [el, er]

/-! ### second activations × third weights: [8192, 128] · [128, 64] -/

theorem p3_l0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem p3_l1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem p3_r0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem p3_r1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

theorem prod3_apply (l : FVec Ideal S8192x128 .bf16) (r : FVec Ideal S128x64 .bf16) (p : Fin 8192) (j : Fin 64) :
    matmul dot_S8192x128_S128x64_S8192x64_1_0_0_1_n_n none l r (constant S8192x64 .f32 0x00000000#32) (ix2 p j)
      = ∑ k : Fin 128, l (ix2 p k) * r (ix2 k j) := by
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p j) ((contrEquiv1 dot_S8192x128_S128x64_S8192x64_1_0_0_1_n_n 128 rfl rfl).symm k) = ix2 p k := funext fun a => Fin.ext (by
    match a with
    | ⟨0, _⟩ => exact p3_l0 _ _
    | ⟨1, _⟩ => exact (p3_l1 _ _).trans hk)
  have er : dot_S8192x128_S128x64_S8192x64_1_0_0_1_n_n.rhsIdx (ix2 p j) ((contrEquiv1 dot_S8192x128_S128x64_S8192x64_1_0_0_1_n_n 128 rfl rfl).symm k) = ix2 k j := funext fun a => Fin.ext (by
    match a with
    | ⟨0, _⟩ => exact (p3_r0 _ _).trans hk
    | ⟨1, _⟩ => exact p3_r1 _ _)
  rw [el, er]

/-! ### head weights × third activations, both contracted on their second axis: [2, 64] · [8192, 64]ᵀ -/

theorem p4_l0 (i : S2x8192.Idx) (q : dot_S2x64_S8192x64_S2x8192_1_1_0_0_n_n.contr.Idx) :
    (dot_S2x64_S8192x64_S2x8192_1_1_0_0_n_n.lhsIdx i q 0).val = (i 0).val := by
  unfold DotDims.lhsIdx
  rw [dif_neg (show ¬(0 : Fin S2x64.rank) ∈ dot_S2x64_S8192x64_S2x8192_1_1_0_0_n_n.lhsBatch by decide), dif_pos (show (0 : Fin S2x64.rank) ∈ dot_S2x64_S8192x64_S2x8192_1_1_0_0_n_n.lhsNonContracting by decide)]
  rfl
theorem p4_l1 (i : S2x8192.Idx) (q : dot_S2x64_S8192x64_S2x8192_1_1_0_0_n_n.contr.Idx) :
    (dot_S2x64_S8192x64_S2x8192_1_1_0_0_n_n.lhsIdx i q 1).val = (q ⟨0, by decide⟩).val :=
  dot_S2x64_S8192x64_S2x8192_1_1_0_0_n_n.lhsIdx_val_of_single rfl i q
theorem p4_r0 (i : S2x8192.Idx) (q : dot_S2x64_S8192x64_S2x8192_1_1_0_0_n_n.contr.Idx) :
    (dot_S2x64_S8192x64_S2x8192_1_1_0_0_n_n.rhsIdx i q 0).val = (i 1).val := by
  unfold DotDims.rhsIdx
  rw [dif_neg (show ¬(0 : Fin S8192x64.rank) ∈ dot_S2x64_S8192x64_S2x8192_1_1_0_0_n_n.rhsBatch by decide), dif_pos (show (0 : Fin S8192x64.rank) ∈ dot_S2x64_S8192x64_S2x8192_1_1_0_0_n_n.rhsNonContracting by decide)]
  rfl
theorem p4_r1 (i : S2x8192.Idx) (q : dot_S2x64_S8192x64_S2x8192_1_1_0_0_n_n.contr.Idx) :
    (dot_S2x64_S8192x64_S2x8192_1_1_0_0_n_n.rhsIdx i q 1).val = (q ⟨0, by decide⟩).val :=
  dot_S2x64_S8192x64_S2x8192_1_1_0_0_n_n.rhsIdx_val_of_single rfl i q

theorem prod4_apply (l : FVec Ideal S2x64 .bf16) (r : FVec Ideal S8192x64 .bf16) (d : Fin 2) (p : Fin 8192) :
    matmul dot_S2x64_S8192x64_S2x8192_1_1_0_0_n_n none l r (constant S2x8192 .f32 0x00000000#32) (ix2 d p)
      = ∑ k : Fin 64, l (ix2 d k) * r (ix2 p k) := by
  simp only [matmul]
  rw [Ideal.matmul_constant_zero_apply, ← Equiv.sum_comp (contrEquiv1 dot_S2x64_S8192x64_S2x8192_1_1_0_0_n_n 64 rfl rfl).symm]
  refine Finset.sum_congr rfl fun k _ => ?_
  have hk := contrEquiv1_symm_val dot_S2x64_S8192x64_S2x8192_1_1_0_0_n_n 64 rfl rfl k
  have el : dot_S2x64_S8192x64_S2x8192_1_1_0_0_n_n.lhsIdx (ix2 d p) ((contrEquiv1 dot_S2x64_S8192x64_S2x8192_1_1_0_0_n_n 64 rfl rfl).symm k) = ix2 d k := funext fun a => Fin.ext (by
    match a with
    | ⟨0, _⟩ => exact p4_l0 _ _
    | ⟨1, _⟩ => exact (p4_l1 _ _).trans hk)
  have er : dot_S2x64_S8192x64_S2x8192_1_1_0_0_n_n.rhsIdx (ix2 d p) ((contrEquiv1 dot_S2x64_S8192x64_S2x8192_1_1_0_0_n_n 64 rfl rfl).symm k) = ix2 p k := funext fun a => Fin.ext (by
    match a with
    | ⟨0, _⟩ => exact p4_r0 _ _
    | ⟨1, _⟩ => exact (p4_r1 _ _).trans hk)
  rw [el, er]

/-! ## The body's stages as vector terms -/

/-- First hidden layer of the block, as the body writes it. -/
def act1 (x : Vec Ideal S8192x360 .f32) (w : Vec Ideal S360x128 .f32) (b : Vec Ideal S1x128 .f32) : FVec Ideal S8192x128 .f32 :=
  maximumf (addf (matmul dot_S8192x360_S360x128_S8192x128_1_0_0_1_n_n none (truncf .bf16 x bitsLt_bf16_f32) (truncf .bf16 w bitsLt_bf16_f32) (constant S8192x128 .f32 0x00000000#32))
      (broadcastTo S8192x128 (shapeCast S1x128 b shapeCasts_S1x128_S1x128) broadcasts_S1x128_S8192x128))
    (broadcast S8192x128 (Scalar.ofBits .f32 0x00000000#32))

/-- Second hidden layer of the block. -/
def act2 (h : FVec Ideal S8192x128 .f32) (w : Vec Ideal S128x128 .f32) (b : Vec Ideal S1x128 .f32) : FVec Ideal S8192x128 .f32 :=
  maximumf (addf (matmul dot_S8192x128_S128x128_S8192x128_1_0_0_1_n_n none (truncf .bf16 h bitsLt_bf16_f32) (truncf .bf16 w bitsLt_bf16_f32) (constant S8192x128 .f32 0x00000000#32))
      (broadcastTo S8192x128 (shapeCast S1x128 b shapeCasts_S1x128_S1x128) broadcasts_S1x128_S8192x128))
    (broadcast S8192x128 (Scalar.ofBits .f32 0x00000000#32))

/-- Third hidden layer of the block. -/
def act3 (h : FVec Ideal S8192x128 .f32) (w : Vec Ideal S128x64 .f32) (b : Vec Ideal S1x64 .f32) : FVec Ideal S8192x64 .f32 :=
  maximumf (addf (matmul dot_S8192x128_S128x64_S8192x64_1_0_0_1_n_n none (truncf .bf16 h bitsLt_bf16_f32) (truncf .bf16 w bitsLt_bf16_f32) (constant S8192x64 .f32 0x00000000#32))
      (broadcastTo S8192x64 (shapeCast S1x64 b shapeCasts_S1x64_S1x64) broadcasts_S1x64_S8192x64))
    (broadcast S8192x64 (Scalar.ofBits .f32 0x00000000#32))

/-- The transposed head product of the block. -/
def headT (h : FVec Ideal S8192x64 .f32) (w : Vec Ideal S2x64 .f32) : FVec Ideal S2x8192 .f32 :=
  matmul dot_S2x64_S8192x64_S2x8192_1_1_0_0_n_n none (truncf .bf16 (shapeCast S2x64 w shapeCasts_S2x64_S2x64) bitsLt_bf16_f32) (truncf .bf16 h bitsLt_bf16_f32) (constant S2x8192 .f32 0x00000000#32)

/-- The head with its bias column. -/
def biased (v : FVec Ideal S2x8192 .f32) (b : Vec Ideal S2x1 .f32) : FVec Ideal S2x8192 .f32 :=
  addf v (broadcastTo S2x8192 (shapeCast S2x1 b shapeCasts_S2x1_S2x1) broadcasts_S2x1_S2x8192)

/-- Row 0 of the biased head, clamped at zero. -/
def clamped (u : FVec Ideal S2x8192 .f32) : FVec Ideal S1x8192 .f32 :=
  maximumf (extractStridedSlice S1x8192 ![0, 0] u slices_S2x8192_o0_0_S1x8192) (broadcast S1x8192 (Scalar.ofBits .f32 0x00000000#32))

/-- Row 1 of the biased head, through `tanh`, times three. -/
def squashed (u : FVec Ideal S2x8192 .f32) : FVec Ideal S1x8192 .f32 :=
  mulf (tanh (extractStridedSlice S1x8192 ![1, 0] u slices_S2x8192_o1_0_S1x8192)) (broadcast S1x8192 (Scalar.ofBits .f32 0x40400000#32))

/-- The first payload is the head product over the three hidden layers. -/
theorem pay2_eq (x0 : Vec Ideal S8192x360 .f32) (x1 : Vec Ideal S360x128 .f32) (x2 : Vec Ideal S1x128 .f32) (x3 : Vec Ideal S128x128 .f32)
    (x4 : Vec Ideal S1x128 .f32) (x5 : Vec Ideal S128x64 .f32) (x6 : Vec Ideal S1x64 .f32) (x7 : Vec Ideal S2x64 .f32) :
    k0_pay2 x0 x1 x2 x3 x4 x5 x6 x7 = headT (act3 (act2 (act1 x0 x1 x2) x3 x4) x5 x6) x7 := rfl

/-- The stored payload stacks the clamped row on the squashed row of the biased head. -/
theorem pay1_eq (v : FVec Ideal S2x8192 .f32) (b : Vec Ideal S2x1 .f32) :
    k0_pay1 v b = concatenate S2x8192 0 [⟨S1x8192, clamped (biased v b)⟩, ⟨S1x8192, squashed (biased v b)⟩] concatenates_S1x8192_S1x8192_S2x8192_d0 := rfl

/-! ## The stages at an index -/

theorem act1_apply (x : Vec Ideal S8192x360 .f32) (w : Vec Ideal S360x128 .f32) (b : Vec Ideal S1x128 .f32) (p : Fin 8192) (j : Fin 128) :
    act1 x w b (ix2 p j) = hidden (fun k => x (ix2 p k)) (fun k j => w (ix2 k j)) (fun j => b (ix2 (0 : Fin 1) j)) j := by
  unfold act1
  rw [maximumf_apply, addf_apply, prod1_apply, broadcastTo_1b_ab_apply, shapeCast_self]
  rfl

theorem act2_apply (h : FVec Ideal S8192x128 .f32) (w : Vec Ideal S128x128 .f32) (b : Vec Ideal S1x128 .f32) (p : Fin 8192) (j : Fin 128) :
    act2 h w b (ix2 p j) = hidden (fun k => h (ix2 p k)) (fun k j => w (ix2 k j)) (fun j => b (ix2 (0 : Fin 1) j)) j := by
  unfold act2
  rw [maximumf_apply, addf_apply, prod2_apply, broadcastTo_1b_ab_apply, shapeCast_self]
  rfl

theorem act3_apply (h : FVec Ideal S8192x128 .f32) (w : Vec Ideal S128x64 .f32) (b : Vec Ideal S1x64 .f32) (p : Fin 8192) (j : Fin 64) :
    act3 h w b (ix2 p j) = hidden (fun k => h (ix2 p k)) (fun k j => w (ix2 k j)) (fun j => b (ix2 (0 : Fin 1) j)) j := by
  unfold act3
  rw [maximumf_apply, addf_apply, prod3_apply, broadcastTo_1b_ab_apply, shapeCast_self]
  rfl

theorem headT_apply (h : FVec Ideal S8192x64 .f32) (w : Vec Ideal S2x64 .f32) (d : Fin 2) (p : Fin 8192) :
    headT h w (ix2 d p) = ∑ k : Fin 64, h (ix2 p k) * w (ix2 d k) := by
  unfold headT
  rw [prod4_apply, shapeCast_self]
  exact Finset.sum_congr rfl fun k _ => mul_comm _ _

/-- The bias column broadcast along the rows reads its entry of the unit. -/
theorem biased_apply (v : FVec Ideal S2x8192 .f32) (b : Vec Ideal S2x1 .f32) (d : Fin 2) (p : Fin 8192) :
    biased v b (ix2 d p) = v (ix2 d p) + b (ix2 d (0 : Fin 1)) := by
  unfold biased
  rw [addf_apply, shapeCast_self]
  refine congrArg (v (ix2 d p) + ·) ?_
  exact broadcastTo_apply b _ (ix2 d p) (ix2 d (0 : Fin 1)) (fun a => by
    match a with
    | ⟨0, _⟩ => show d.val = if (2 : Nat) = 1 then 0 else d.val; rw [if_neg (by decide)]
    | ⟨1, _⟩ => show 0 = if (1 : Nat) = 1 then 0 else p.val; rw [if_pos rfl])

theorem clamped_apply (u : FVec Ideal S2x8192 .f32) (p : Fin 8192) :
    clamped u (ix2 (0 : Fin 1) p) = max (u (ix2 (0 : Fin 2) p)) zeroW := by
  unfold clamped
  rw [maximumf_apply, slice2_axis0_apply 0 u _ (0 : Fin 1) p (0 : Fin 2) rfl]
  rfl

theorem squashed_apply (u : FVec Ideal S2x8192 .f32) (p : Fin 8192) :
    squashed u (ix2 (0 : Fin 1) p) = Ideal.tanh (u (ix2 (1 : Fin 2) p)) * threeW := by
  unfold squashed
  rw [mulf_apply]
  show Ideal.tanh (extractStridedSlice S1x8192 ![1, 0] u _ (ix2 (0 : Fin 1) p)) * _ = _
  rw [slice2_axis0_apply 1 u _ (0 : Fin 1) p (1 : Fin 2) rfl]
  rfl

/-! ## The stored block at an index -/

/-- The head before its nonlinearities at `(d, p)` is the network's affine head on row `p`. -/
theorem head_apply (x0 : Vec Ideal S8192x360 .f32) (x1 : Vec Ideal S360x128 .f32) (x2 : Vec Ideal S1x128 .f32) (x3 : Vec Ideal S128x128 .f32)
    (x4 : Vec Ideal S1x128 .f32) (x5 : Vec Ideal S128x64 .f32) (x6 : Vec Ideal S1x64 .f32) (x7 : Vec Ideal S2x64 .f32) (x8 : Vec Ideal S2x1 .f32)
    (d : Fin 2) (p : Fin 8192) :
    biased (k0_pay2 x0 x1 x2 x3 x4 x5 x6 x7) x8 (ix2 d p)
      = affine (hidden (hidden (hidden (fun k => x0 (ix2 p k)) (fun k j => x1 (ix2 k j)) (fun j => x2 (ix2 (0 : Fin 1) j)))
          (fun k j => x3 (ix2 k j)) (fun j => x4 (ix2 (0 : Fin 1) j))) (fun k j => x5 (ix2 k j)) (fun j => x6 (ix2 (0 : Fin 1) j)))
          (fun k e => x7 (ix2 e k)) (fun e => x8 (ix2 e (0 : Fin 1))) d := by
  rw [biased_apply, pay2_eq, headT_apply]
  simp only [act3_apply, act2_apply, act1_apply]
  rfl

/-- THE BLOCK: what the body stores at unit `d`, row `p` is the network's result for row `p` of the
    input block, the biases read off their one-row arrays, the head weights off their transposed array and
    the head bias off its one-column array. -/
theorem block_apply (x0 : Vec Ideal S8192x360 .f32) (x1 : Vec Ideal S360x128 .f32) (x2 : Vec Ideal S1x128 .f32) (x3 : Vec Ideal S128x128 .f32)
    (x4 : Vec Ideal S1x128 .f32) (x5 : Vec Ideal S128x64 .f32) (x6 : Vec Ideal S1x64 .f32) (x7 : Vec Ideal S2x64 .f32) (x8 : Vec Ideal S2x1 .f32)
    (d : Fin 2) (p : Fin 8192) :
    k0_pay1 (k0_pay2 x0 x1 x2 x3 x4 x5 x6 x7) x8 (ix2 d p)
      = rowOut (fun k => x0 (ix2 p k)) (fun k j => x1 (ix2 k j)) (fun j => x2 (ix2 (0 : Fin 1) j))
          (fun k j => x3 (ix2 k j)) (fun j => x4 (ix2 (0 : Fin 1) j)) (fun k j => x5 (ix2 k j)) (fun j => x6 (ix2 (0 : Fin 1) j))
          (fun k e => x7 (ix2 e k)) (fun e => x8 (ix2 e (0 : Fin 1))) d := by
  rw [pay1_eq]
  match d with
  | ⟨0, _⟩ =>
    refine (concatenate_pair_apply_left (t := S2x8192) (s₁ := S1x8192) (s₂ := S1x8192) (0 : Fin 2) _ _ _
      (ix2 (0 : Fin 2) p) rfl (ix2 (0 : Fin 1) p) (fun b => by match b with | ⟨0, _⟩ => rfl | ⟨1, _⟩ => rfl)).trans ?_
    rw [clamped_apply, head_apply]
    rfl
  | ⟨1, _⟩ =>
    refine (concatenate_pair_apply_right (t := S2x8192) (s₁ := S1x8192) (s₂ := S1x8192) (0 : Fin 2) _ _ _
      (ix2 (1 : Fin 2) p) rfl rfl (ix2 (0 : Fin 1) p)
      (fun b hb => by match b with | ⟨0, _⟩ => exact absurd rfl hb | ⟨1, _⟩ => rfl) rfl).trans ?_
    rw [squashed_apply, head_apply]
    rfl

end Cert.KernelIdeal.Row

end
-- ==== Proof.KernelNet.lean ====
/-
  From blocks to the array: what the kernel's program leaves in its result.

  The program reshapes the three hidden biases to one-row arrays, transposes the head weights to [2, 64]
  and reshapes the head bias to a one-column array; launches the body on a grid of 32 points, point `t`
  reading rows `8192·t … 8192·t + 8191` of the input and every weight array whole, and writing columns
  `8192·t … 8192·t + 8191` of a [2, 262144] array; and transposes that array into the [262144, 2] result.

  By `Cert.KernelIdeal.Row.block_apply` the block point `t` writes holds, at unit `d` and row `p`, the
  network's result for input row `8192·t + p`: so every block is the restriction of ONE array, the
  network's result transposed (`netT`). The 32 blocks tile the columns, hence the region's array ends
  holding `netT`; read through the host operations before the region, `netT` at `(d, r)` is
  `Cert.Mlp.net` of the program's arguments at `(r, d)`, which is what the closing transpose writes.
-/
import proofs.«404383_j43928925503537_3_alg».proof.Proof.Gen.KernelIdeal.Frame
import proofs.«404383_j43928925503537_3_alg».proof.Proof.KernelRow
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Net

open Cert.KernelIdeal Cert.KernelIdeal.Gen Cert.Mlp
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The network's result with its two axes exchanged, over the arrays as the region finds them: the input,
    the three weight arrays, the one-row biases, the transposed head weights and the one-column head bias. -/
def netT (a0 : Vec Ideal S262144x360 .f32) (a1 : Vec Ideal S360x128 .f32) (v0 : Vec Ideal S1x128 .f32)
    (a3 : Vec Ideal S128x128 .f32) (v1 : Vec Ideal S1x128 .f32) (a5 : Vec Ideal S128x64 .f32) (v2 : Vec Ideal S1x64 .f32)
    (v3 : Vec Ideal S2x64 .f32) (v4 : Vec Ideal S2x1 .f32) : Vec Ideal S2x262144 .f32 := fun i =>
  rowOut (fun k => a0 (ix2 (i 1) k)) (fun k j => a1 (ix2 k j)) (fun j => v0 (ix2 (0 : Fin 1) j))
    (fun k j => a3 (ix2 k j)) (fun j => v1 (ix2 (0 : Fin 1) j)) (fun k j => a5 (ix2 k j)) (fun j => v2 (ix2 (0 : Fin 1) j))
    (fun k e => v3 (ix2 e k)) (fun e => v4 (ix2 e (0 : Fin 1))) (i 0)

/-! ## The grid -/

/-- The block index maps, decided over the 32 points: the input's row block and the output's column block
    are the point's number, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

theorem point_lt (t : Fin cfg0.N) : t.val < 32 := lt_of_lt_of_eq t.isLt N_0

/-! ## What a point writes back -/

/-- Point `t` writes back block `t` of `netT` of the arrays as the region finds them. -/
theorem flushed_eq (c : Dev nD) (t : Fin cfg0.N) :
    (dats m 0 c).flushed 9 t = ((cfg0.win 9).blk t).view.read (Elt Ideal)
      (netT (V m c main_arg0) (V m c main_arg1) (V m c main_v0) (V m c main_arg3) (V m c main_v1) (V m c main_arg5)
        (V m c main_v2) (V m c main_v3) (V m c main_v4)) := by
  show (cfg0.win 9).cut (grid0.coords t) ((dats m 0 c).after 9 t) = _
  rw [after0_9]
  unfold out0_9
  rw [View.canon_unit_zero hz]
  simp only [View.ld_unit_zero (S := S8192x360) hz, View.ld_unit_zero (S := S360x128) hz, View.ld_unit_zero (S := S1x128) hz,
    View.ld_unit_zero (S := S128x128) hz, View.ld_unit_zero (S := S128x64) hz, View.ld_unit_zero (S := S1x64) hz,
    View.ld_unit_zero (S := S2x64) hz, View.ld_unit_zero (S := S2x1) hz]
  obtain ⟨f00, f01, f10, f11, f20, f21, f30, f31, f40, f41, f50, f51, f60, f61, f70, f71, f80, f81, f90, f91⟩ := idx_facts t
  have ht := point_lt t
  funext j
  obtain ⟨d, p, rfl⟩ : ∃ (d : Fin 2) (p : Fin 8192), j = ix2 d p := ⟨j 0, j 1, eq_ix2 j⟩
  have hd : d.val < 2 := d.isLt
  have hp : p.val < 8192 := p.isLt
  show k0_pay1 (k0_pay2 (iblk m c 0 t) (iblk m c 1 t) (iblk m c 2 t) (iblk m c 3 t) (iblk m c 4 t) (iblk m c 5 t) (iblk m c 6 t) (iblk m c 7 t)) (iblk m c 8 t) (ix2 d p)
    = netT (V m c main_arg0) (V m c main_arg1) (V m c main_v0) (V m c main_arg3) (V m c main_v1) (V m c main_arg5)
        (V m c main_v2) (V m c main_v3) (V m c main_v4) (((cfg0.win 9).blk t).view.emb (ix2 d p))
  refine (Row.block_apply (iblk m c 0 t) (iblk m c 1 t) (iblk m c 2 t) (iblk m c 3 t) (iblk m c 4 t) (iblk m c 5 t) (iblk m c 6 t) (iblk m c 7 t) (iblk m c 8 t) d p).trans ?_
  -- the output block's element (d, p) sits at column 8192·t + p of the array
  have hE : ((cfg0.win 9).blk t).view.emb (ix2 d p) = ix2 d (⟨t.val * 8192 + p.val, by omega⟩ : Fin 262144) := by
    funext a; apply Fin.ext
    match a with
    | ⟨0, _⟩ => show win0_9.index t (0 : Fin 2) * 2 + 1 * d.val = d.val; omega
    | ⟨1, _⟩ => show win0_9.index t (1 : Fin 2) * 8192 + 1 * p.val = t.val * 8192 + p.val; omega
  rw [hE]
  -- each input block read where the body reads it
  have r0 : ∀ k : Fin 360, (iblk m c 0 t : Vec Ideal S8192x360 .f32) (ix2 p k)
      = V m c main_arg0 (ix2 (⟨t.val * 8192 + p.val, by omega⟩ : Fin 262144) k) := fun k => by
    have h : ((cfg0.win 0).blk t).view.emb (ix2 p k) = ix2 (⟨t.val * 8192 + p.val, by omega⟩ : Fin 262144) k := by
      funext a; apply Fin.ext
      match a with
      | ⟨0, _⟩ => show win0_0.index t (0 : Fin 2) * 8192 + 1 * p.val = t.val * 8192 + p.val; omega
      | ⟨1, _⟩ => show win0_0.index t (1 : Fin 2) * 360 + 1 * k.val = k.val; omega
    show V m c main_arg0 (((cfg0.win 0).blk t).view.emb (ix2 p k)) = _
    rw [h]
  have r1 : ∀ (k : Fin 360) (j : Fin 128), (iblk m c 1 t : Vec Ideal S360x128 .f32) (ix2 k j) = V m c main_arg1 (ix2 k j) := fun k j => by
    have h : ((cfg0.win 1).blk t).view.emb (ix2 k j) = ix2 k j := by
      funext a; apply Fin.ext
      match a with
      | ⟨0, _⟩ => show win0_1.index t (0 : Fin 2) * 360 + 1 * k.val = k.val; omega
      | ⟨1, _⟩ => show win0_1.index t (1 : Fin 2) * 128 + 1 * j.val = j.val; omega
    show V m c main_arg1 (((cfg0.win 1).blk t).view.emb (ix2 k j)) = _
    rw [h]
  have r2 : ∀ j : Fin 128, (iblk m c 2 t : Vec Ideal S1x128 .f32) (ix2 (0 : Fin 1) j) = V m c main_v0 (ix2 (0 : Fin 1) j) := fun j => by
    have h : ((cfg0.win 2).blk t).view.emb (ix2 (0 : Fin 1) j) = ix2 (0 : Fin 1) j := by
      funext a; apply Fin.ext
      match a with
      | ⟨0, _⟩ => show win0_2.index t (0 : Fin 2) * 1 + 1 * 0 = 0; omega
      | ⟨1, _⟩ => show win0_2.index t (1 : Fin 2) * 128 + 1 * j.val = j.val; omega
    show V m c main_v0 (((cfg0.win 2).blk t).view.emb (ix2 (0 : Fin 1) j)) = _
    rw [h]
  have r3 : ∀ (k : Fin 128) (j : Fin 128), (iblk m c 3 t : Vec Ideal S128x128 .f32) (ix2 k j) = V m c main_arg3 (ix2 k j) := fun k j => by
    have h : ((cfg0.win 3).blk t).view.emb (ix2 k j) = ix2 k j := by
      funext a; apply Fin.ext
      match a with
      | ⟨0, _⟩ => show win0_3.index t (0 : Fin 2) * 128 + 1 * k.val = k.val; omega
      | ⟨1, _⟩ => show win0_3.index t (1 : Fin 2) * 128 + 1 * j.val = j.val; omega
    show V m c main_arg3 (((cfg0.win 3).blk t).view.emb (ix2 k j)) = _
    rw [h]
  have r4 : ∀ j : Fin 128, (iblk m c 4 t : Vec Ideal S1x128 .f32) (ix2 (0 : Fin 1) j) = V m c main_v1 (ix2 (0 : Fin 1) j) := fun j => by
    have h : ((cfg0.win 4).blk t).view.emb (ix2 (0 : Fin 1) j) = ix2 (0 : Fin 1) j := by
      funext a; apply Fin.ext
      match a with
      | ⟨0, _⟩ => show win0_4.index t (0 : Fin 2) * 1 + 1 * 0 = 0; omega
      | ⟨1, _⟩ => show win0_4.index t (1 : Fin 2) * 128 + 1 * j.val = j.val; omega
    show V m c main_v1 (((cfg0.win 4).blk t).view.emb (ix2 (0 : Fin 1) j)) = _
    rw [h]
  have r5 : ∀ (k : Fin 128) (j : Fin 64), (iblk m c 5 t : Vec Ideal S128x64 .f32) (ix2 k j) = V m c main_arg5 (ix2 k j) := fun k j => by
    have h : ((cfg0.win 5).blk t).view.emb (ix2 k j) = ix2 k j := by
      funext a; apply Fin.ext
      match a with
      | ⟨0, _⟩ => show win0_5.index t (0 : Fin 2) * 128 + 1 * k.val = k.val; omega
      | ⟨1, _⟩ => show win0_5.index t (1 : Fin 2) * 64 + 1 * j.val = j.val; omega
    show V m c main_arg5 (((cfg0.win 5).blk t).view.emb (ix2 k j)) = _
    rw [h]
  have r6 : ∀ j : Fin 64, (iblk m c 6 t : Vec Ideal S1x64 .f32) (ix2 (0 : Fin 1) j) = V m c main_v2 (ix2 (0 : Fin 1) j) := fun j => by
    have h : ((cfg0.win 6).blk t).view.emb (ix2 (0 : Fin 1) j) = ix2 (0 : Fin 1) j := by
      funext a; apply Fin.ext
      match a with
      | ⟨0, _⟩ => show win0_6.index t (0 : Fin 2) * 1 + 1 * 0 = 0; omega
      | ⟨1, _⟩ => show win0_6.index t (1 : Fin 2) * 64 + 1 * j.val = j.val; omega
    show V m c main_v2 (((cfg0.win 6).blk t).view.emb (ix2 (0 : Fin 1) j)) = _
    rw [h]
  have r7 : ∀ (e : Fin 2) (k : Fin 64), (iblk m c 7 t : Vec Ideal S2x64 .f32) (ix2 e k) = V m c main_v3 (ix2 e k) := fun e k => by
    have h : ((cfg0.win 7).blk t).view.emb (ix2 e k) = ix2 e k := by
      funext a; apply Fin.ext
      match a with
      | ⟨0, _⟩ => show win0_7.index t (0 : Fin 2) * 2 + 1 * e.val = e.val; omega
      | ⟨1, _⟩ => show win0_7.index t (1 : Fin 2) * 64 + 1 * k.val = k.val; omega
    show V m c main_v3 (((cfg0.win 7).blk t).view.emb (ix2 e k)) = _
    rw [h]
  have r8 : ∀ e : Fin 2, (iblk m c 8 t : Vec Ideal S2x1 .f32) (ix2 e (0 : Fin 1)) = V m c main_v4 (ix2 e (0 : Fin 1)) := fun e => by
    have h : ((cfg0.win 8).blk t).view.emb (ix2 e (0 : Fin 1)) = ix2 e (0 : Fin 1) := by
      funext a; apply Fin.ext
      match a with
      | ⟨0, _⟩ => show win0_8.index t (0 : Fin 2) * 2 + 1 * e.val = e.val; omega
      | ⟨1, _⟩ => show win0_8.index t (1 : Fin 2) * 1 + 1 * 0 = 0; omega
    show V m c main_v4 (((cfg0.win 8).blk t).view.emb (ix2 e (0 : Fin 1))) = _
    rw [h]
  simp only [r0, r1, r2, r3, r4, r5, r6, r7, r8]
  rfl

/-! ## The blocks tile the array -/

/-- An index of the region's array is in point `t`'s block iff each coordinate is in the block's range. -/
theorem mem_blk (t : Fin cfg0.N) (i : S2x262144.Idx) :
    i ∈ ((cfg0.win 9).blk t).view.set ↔ ∀ a : Fin 2, win0_9.index t a * S2x8192.size a ≤ (i a).val ∧ (i a).val < win0_9.index t a * S2x8192.size a + S2x8192.size a := by
  show i ∈ ((View.whole main_v5).slice (win0_9.rect t)).set ↔ _
  rw [View.set_slice_whole, Rect.mem_set_unit]
  exact Iff.rfl

/-- Column `r` lies in the block of point `r / 8192`. -/
theorem cover (i : S2x262144.Idx) : ∃ t : Fin cfg0.N, (cfg0.win 9).flush t = true ∧ i ∈ ((cfg0.win 9).blk t).view.set := by
  have h0 : (i 0).val < 2 := (i 0).isLt
  have h1 : (i 1).val < 262144 := (i 1).isLt
  have hlt : (i 1).val / 8192 < cfg0.N := lt_of_lt_of_eq (by omega : (i 1).val / 8192 < 32) N_0.symm
  refine ⟨⟨(i 1).val / 8192, hlt⟩, flush0_9 _, ?_⟩
  rw [mem_blk]
  obtain ⟨-, -, -, -, -, -, -, -, -, -, -, -, -, -, -, -, -, -, f90, f91⟩ := idx_facts ⟨(i 1).val / 8192, hlt⟩
  have f91' : win0_9.index ⟨(i 1).val / 8192, hlt⟩ (1 : Fin 2) = (i 1).val / 8192 := f91
  intro a
  match a with
  | ⟨0, _⟩ =>
    show win0_9.index ⟨(i 1).val / 8192, hlt⟩ (0 : Fin 2) * 2 ≤ (i 0).val ∧ (i 0).val < win0_9.index ⟨(i 1).val / 8192, hlt⟩ (0 : Fin 2) * 2 + 2
    omega
  | ⟨1, _⟩ =>
    show win0_9.index ⟨(i 1).val / 8192, hlt⟩ (1 : Fin 2) * 8192 ≤ (i 1).val ∧ (i 1).val < win0_9.index ⟨(i 1).val / 8192, hlt⟩ (1 : Fin 2) * 8192 + 8192
    omega

/-- The region's array after the run is `netT` of the arrays as the region finds them. -/
theorem region_final (c : Dev nD) :
    (dats m 0 c).arrAt 9 cfg0.N = netT (V m c main_arg0) (V m c main_arg1) (V m c main_v0) (V m c main_arg3) (V m c main_v1)
      (V m c main_arg5) (V m c main_v2) (V m c main_v3) (V m c main_v4) :=
  (dats m 0 c).arrAt_eq_of_cover 9 _ (fun t _ => flushed_eq m c t) cover

end Cert.KernelIdeal.Net

end
-- ==== Proof.KernelHost.lean ====
/-
  The host operations before the region, read at an index.

  Before it launches the body the kernel's program reshapes each hidden bias [n] to one row [1, n],
  transposes the head weights [64, 2] to [2, 64] and reshapes the head bias [2] to one column [2, 1];
  the input and the three hidden weight arrays reach the region as launched. Read at an index: entry
  `(0, j)` of a one-row bias is entry `j` of the bias, entry `(e, k)` of the transposed head weights is
  entry `(k, e)` of the head weights, entry `(e, 0)` of the one-column bias is entry `e` of the head bias.
-/
import proofs.«404383_j43928925503537_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Host

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- A column array [n, 1] cast from [n] reads, at `(e, 0)`, the operand at `e`. -/
theorem shapeCast_a_a1_apply {α : Type} {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- The first hidden bias as the region finds it: one row. -/
theorem bias1_apply (c : Dev nD) (j : Fin 128) :
    (V m c main_v0 : Vec Ideal S1x128 .f32) (ix2 (0 : Fin 1) j) = (m ((c : Thread nD τ).loc main_arg2) : Vec Ideal S128 .f32) (ix1 j) := by
  have e : (V m c main_v0 : Vec Ideal S1x128 .f32)
      = shapeCast S1x128 (m ((c : Thread nD τ).loc main_arg2) : Vec Ideal S128 .f32) shapeCasts_S128_S1x128 := by
    show StableHlo.after hostOps0 (fun b => m (c, b)) (Proc.devRef .tc main_v0) = _
    after_results
    rfl
  rw [e]
  exact shapeCast_a_1a_apply _ _ (0 : Fin 1) j

/-- The second hidden bias as the region finds it: one row. -/
theorem bias2_apply (c : Dev nD) (j : Fin 128) :
    (V m c main_v1 : Vec Ideal S1x128 .f32) (ix2 (0 : Fin 1) j) = (m ((c : Thread nD τ).loc main_arg4) : Vec Ideal S128 .f32) (ix1 j) := by
  have e : (V m c main_v1 : Vec Ideal S1x128 .f32)
      = shapeCast S1x128 (m ((c : Thread nD τ).loc main_arg4) : Vec Ideal S128 .f32) shapeCasts_S128_S1x128 := by
    show StableHlo.after hostOps0 (fun b => m (c, b)) (Proc.devRef .tc main_v1) = _
    after_results
    rfl
  rw [e]
  exact shapeCast_a_1a_apply _ _ (0 : Fin 1) j

/-- The third hidden bias as the region finds it: one row. -/
theorem bias3_apply (c : Dev nD) (j : Fin 64) :
    (V m c main_v2 : Vec Ideal S1x64 .f32) (ix2 (0 : Fin 1) j) = (m ((c : Thread nD τ).loc main_arg6) : Vec Ideal S64 .f32) (ix1 j) := by
  have e : (V m c main_v2 : Vec Ideal S1x64 .f32)
      = shapeCast S1x64 (m ((c : Thread nD τ).loc main_arg6) : Vec Ideal S64 .f32) shapeCasts_S64_S1x64 := by
    show StableHlo.after hostOps0 (fun b => m (c, b)) (Proc.devRef .tc main_v2) = _
    after_results
    rfl
  rw [e]
  exact shapeCast_a_1a_apply _ _ (0 : Fin 1) j

/-- The head weights as the region finds them: transposed. -/
theorem headW_apply (c : Dev nD) (e : Fin 2) (k : Fin 64) :
    (V m c main_v3 : Vec Ideal S2x64 .f32) (ix2 e k) = (m ((c : Thread nD τ).loc main_arg7) : Vec Ideal S64x2 .f32) (ix2 k e) := by
  have h : (V m c main_v3 : Vec Ideal S2x64 .f32)
      = transpose S2x64 [1, 0] (m ((c : Thread nD τ).loc main_arg7) : Vec Ideal S64x2 .f32) transposes_S64x2_S2x64_1_0 := by
    show StableHlo.after hostOps0 (fun b => m (c, b)) (Proc.devRef .tc main_v3) = _
    after_results
  rw [h]
  exact transpose_ix2_apply _ _ e k

/-- The head bias as the region finds it: one column. -/
theorem headB_apply (c : Dev nD) (e : Fin 2) :
    (V m c main_v4 : Vec Ideal S2x1 .f32) (ix2 e (0 : Fin 1)) = (m ((c : Thread nD τ).loc main_arg8) : Vec Ideal S2 .f32) (ix1 e) := by
  have h : (V m c main_v4 : Vec Ideal S2x1 .f32)
      = shapeCast S2x1 (m ((c : Thread nD τ).loc main_arg8) : Vec Ideal S2 .f32) shapeCasts_S2_S2x1 := by
    show StableHlo.after hostOps0 (fun b => m (c, b)) (Proc.devRef .tc main_v4) = _
    after_results
    rfl
  rw [h]
  exact shapeCast_a_a1_apply _ _ e (0 : Fin 1)

end Cert.KernelIdeal.Host

end
-- ==== Proof.KernelRun.lean ====
/-
  The kernel's program, run: its result array holds the network of its arguments.

  After the region its [2, 262144] array holds `netT` of the arrays the region found
  (`Cert.KernelIdeal.Net.region_final`). Those arrays are the arguments themselves or a reshape or
  transpose of one (`Cert.KernelIdeal.Host`), so `netT` at `(d, r)` is `Cert.Mlp.net` of the arguments
  at `(r, d)`; the one host operation after the region transposes the array, which puts `net` of the
  arguments at `(r, d)` of the result. The arguments end as they were launched.
-/
import proofs.«404383_j43928925503537_3_alg».proof.Proof.KernelNet
import proofs.«404383_j43928925503537_3_alg».proof.Proof.KernelHost

noncomputable section

namespace Cert.KernelIdeal.Whole

open Cert.KernelIdeal Cert.KernelIdeal.Gen Cert.KernelIdeal.Net Cert.Mlp
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- `netT` of the arrays as the region finds them, at unit `d` and row `r`, is the network of the program's
    arguments at row `r` and unit `d`. -/
theorem netT_entry (c : Dev nD) (r : Fin 262144) (d : Fin 2) :
    netT (V m c main_arg0) (V m c main_arg1) (V m c main_v0) (V m c main_arg3) (V m c main_v1) (V m c main_arg5)
        (V m c main_v2) (V m c main_v3) (V m c main_v4) (ix2 d r)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 r d) := by
  show rowOut (fun k => (V m c main_arg0 : Vec Ideal S262144x360 .f32) (ix2 r k)) (fun k j => (V m c main_arg1 : Vec Ideal S360x128 .f32) (ix2 k j))
        (fun j => (V m c main_v0 : Vec Ideal S1x128 .f32) (ix2 (0 : Fin 1) j))
        (fun k j => (V m c main_arg3 : Vec Ideal S128x128 .f32) (ix2 k j)) (fun j => (V m c main_v1 : Vec Ideal S1x128 .f32) (ix2 (0 : Fin 1) j))
        (fun k j => (V m c main_arg5 : Vec Ideal S128x64 .f32) (ix2 k j)) (fun j => (V m c main_v2 : Vec Ideal S1x64 .f32) (ix2 (0 : Fin 1) j))
        (fun k e => (V m c main_v3 : Vec Ideal S2x64 .f32) (ix2 e k)) (fun e => (V m c main_v4 : Vec Ideal S2x1 .f32) (ix2 e (0 : Fin 1))) d
      = rowOut (fun k => (m ((c.tc : Thread nD τ).loc main_arg0) : Vec Ideal S262144x360 .f32) (ix2 r k)) (fun k j => (m ((c.tc : Thread nD τ).loc main_arg1) : Vec Ideal S360x128 .f32) (ix2 k j))
        (fun j => (m ((c.tc : Thread nD τ).loc main_arg2) : Vec Ideal S128 .f32) (ix1 j))
        (fun k j => (m ((c.tc : Thread nD τ).loc main_arg3) : Vec Ideal S128x128 .f32) (ix2 k j)) (fun j => (m ((c.tc : Thread nD τ).loc main_arg4) : Vec Ideal S128 .f32) (ix1 j))
        (fun k j => (m ((c.tc : Thread nD τ).loc main_arg5) : Vec Ideal S128x64 .f32) (ix2 k j)) (fun j => (m ((c.tc : Thread nD τ).loc main_arg6) : Vec Ideal S64 .f32) (ix1 j))
        (fun k e => (m ((c.tc : Thread nD τ).loc main_arg7) : Vec Ideal S64x2 .f32) (ix2 k e)) (fun e => (m ((c.tc : Thread nD τ).loc main_arg8) : Vec Ideal S2 .f32) (ix1 e)) d
  rw [V_main_arg0, V_main_arg1, V_main_arg3, V_main_arg5]
  have h2 : (fun j : Fin 128 => (V m c main_v0 : Vec Ideal S1x128 .f32) (ix2 (0 : Fin 1) j)) = fun j => (m ((c.tc : Thread nD τ).loc main_arg2) : Vec Ideal S128 .f32) (ix1 j) :=
    funext fun j => Host.bias1_apply m c j
  have h4 : (fun j : Fin 128 => (V m c main_v1 : Vec Ideal S1x128 .f32) (ix2 (0 : Fin 1) j)) = fun j => (m ((c.tc : Thread nD τ).loc main_arg4) : Vec Ideal S128 .f32) (ix1 j) :=
    funext fun j => Host.bias2_apply m c j
  have h6 : (fun j : Fin 64 => (V m c main_v2 : Vec Ideal S1x64 .f32) (ix2 (0 : Fin 1) j)) = fun j => (m ((c.tc : Thread nD τ).loc main_arg6) : Vec Ideal S64 .f32) (ix1 j) :=
    funext fun j => Host.bias3_apply m c j
  have h7 : (fun (k : Fin 64) (e : Fin 2) => (V m c main_v3 : Vec Ideal S2x64 .f32) (ix2 e k)) = fun k e => (m ((c.tc : Thread nD τ).loc main_arg7) : Vec Ideal S64x2 .f32) (ix2 k e) :=
    funext fun k => funext fun e => Host.headW_apply m c e k
  have h8 : (fun e : Fin 2 => (V m c main_v4 : Vec Ideal S2x1 .f32) (ix2 e (0 : Fin 1))) = fun e => (m ((c.tc : Thread nD τ).loc main_arg8) : Vec Ideal S2 .f32) (ix1 e) :=
    funext fun e => Host.headB_apply m c e
  rw [h2, h4, h6, h7, h8]

/-- What the host operation after the region leaves in the result: the network of the arguments. -/
theorem tail_eq (c : Dev nD) :
    Pipeline.afterTail₀ cfgs (dats m) 0 (V0 m) [hostOps1] c main_v6 = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = netT (V m c main_arg0) (V m c main_arg1) (V m c main_v0) (V m c main_arg3) (V m c main_v1) (V m c main_arg5)
          (V m c main_v2) (V m c main_v3) (V m c main_v4) :=
    (Pipeline.withArrays_arr spec0 launch0.win.arr_inj c _ _ 9).trans (region_final m c)
  rw [hw]
  funext i
  rw [eq_ix2 i]
  refine (transpose_ix2_apply _ _ (i 0) (i 1)).trans ?_
  exact netT_entry m c (i 0) (i 1)

/-- THE RUN: every weakly fair execution of the kernel's program terminates with the result array at the
    network of the arguments and every argument array unchanged. -/
theorem run : θ_run defs (onTc (τ := τ) (main (F := Ideal))) ⟨m, fun _ => 0, ρ⟩ fun r => ∀ c : Dev nD,
      r.2.mem ((c.tc : Thread nD τ).loc main_v6) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Whole

end
-- ==== Proof.lean ====
/-
  The claim: the Pallas kernel and its jnp reference compute the same four-layer network over the
  extended reals, and each of the three programs runs to the end leaving its arguments as launched.

  Both programs are the map `Cert.Mlp.net`: each input row goes through three dense layers clamped below
  at zero and an affine head of two units, unit 0 clamped at zero and unit 1 squashed by `tanh` and scaled
  by three. The reference does it with whole-array host operations (`Cert.ReferenceIdeal.RefNet`). The
  kernel does it block by block, 8192 rows at a time, computing the head TRANSPOSED and transposing the
  [2, 262144] array back at the end (`Cert.KernelIdeal.Row` for one block, `Cert.KernelIdeal.Net` for the
  tiling, `Cert.KernelIdeal.Host` for the reshapes and the transpose before the region,
  `Cert.KernelIdeal.Whole` for the transpose after it and the run). The only law that joins the two sides
  is commutativity of the product, in the head, where the kernel multiplies weight by activation and the
  reference activation by weight; no finiteness of the inputs is used. The idealization pass rewrote
  nothing in the kernel, so there is nothing to preserve.
-/
import proofs.«404383_j43928925503537_3_alg».proof.Defs
import proofs.«404383_j43928925503537_3_alg».proof.Proof.Gen.Kernel
import proofs.«404383_j43928925503537_3_alg».proof.Proof.Gen.Kernel.Frame
import proofs.«404383_j43928925503537_3_alg».proof.Proof.Gen.KernelIdeal
import proofs.«404383_j43928925503537_3_alg».proof.Proof.Gen.KernelIdeal.Frame
import proofs.«404383_j43928925503537_3_alg».proof.Proof.Gen.ReferenceIdeal
import proofs.«404383_j43928925503537_3_alg».proof.Proof.Gen.Pre_finite_inputs
import proofs.«404383_j43928925503537_3_alg».proof.Proof.Gen.ReferenceIdeal.Run
import proofs.«404383_j43928925503537_3_alg».proof.Proof.Gen.ReferenceIdeal.Read
import proofs.«404383_j43928925503537_3_alg».proof.Proof.RefNet
import proofs.«404383_j43928925503537_3_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result arrays. -/
theorem algebraic : Cert.algebraic_KernelIdeal_ReferenceIdeal := by
  intro m ρ m' ρ' _ hagree
  refine ⟨fun c => Cert.Mlp.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8]
  exact (Cert.ReferenceIdeal.Read.val_main_v29_eq _ _ _ _ _ _ _ _ _).trans
    (Cert.ReferenceIdeal.RefNet.result_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
